-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x100 : Shape := ⟨2, ![256, 100]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x100 : S_.BroadcastsInDim S256x100 (![] : Fin 0 → Fin S256x100.rank)
  reducesTo_S256x100_S_d0_1 : S256x100.ReducesTo [0, 1] S_

variable [Facts]

def fn {F : FTy → Type} [FloatOps F] (main_arg0 : FVec F S8x2048x256 .f32) (main_arg1 : FVec F S8x2048x256 .f32) (main_arg2 : FVec F S256x100 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S256x100 .f32 := Host.absf main_arg2
  let main_cst_2 : FVec F S_ .f32 := constant S_ .f32 0x7F800000#32
  let main_v10 : FVec F S256x100 .f32 := broadcastInDim S256x100 ![] bcast_S_S256x100 main_cst_2
  let main_v11 : IVec S256x100 1 := cmpf .olt main_v9 main_v10
  let main_c_3 : IVec S_ 1 := constantI S_ 1 1#1
  let main_v12 : IVec S_ 1 := (fun x v => Host.reduce IntOp.andi x v reducesTo_S256x100_S_d0_1 h_S_) main_v11 main_c_3
  let main_v13 : IVec S_ 1 := andi main_v8 main_v12
  main_v13
-- ==== Kernel.lean ====
abbrev S8x2048x256 : Shape := ⟨3, ![8, 2048, 256]⟩
abbrev S256x100 : Shape := ⟨2, ![256, 100]⟩
abbrev S8x2048x100 : Shape := ⟨3, ![8, 2048, 100]⟩
abbrev S1x2048x256 : Shape := ⟨3, ![1, 2048, 256]⟩
abbrev S1x2048x100 : Shape := ⟨3, ![1, 2048, 100]⟩
abbrev S2048x256 : Shape := ⟨2, ![2048, 256]⟩
abbrev S2048x100 : Shape := ⟨2, ![2048, 100]⟩
abbrev S8x2048x2048 : Shape := ⟨3, ![8, 2048, 2048]⟩
abbrev S1x1024x100 : Shape := ⟨3, ![1, 1024, 100]⟩
abbrev S1x1024x1024 : Shape := ⟨3, ![1, 1024, 1024]⟩
abbrev S1024x100 : Shape := ⟨2, ![1024, 100]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 6
  | .vmem => 16
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S256x100, .f32⟩
  | .hbm, ⟨3, _⟩ => ⟨S8x2048x100, .bf16⟩
  | .hbm, ⟨4, _⟩ => ⟨S8x2048x100, .bf16⟩
  | .hbm, ⟨5, _⟩ => ⟨S8x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S256x100, .f32⟩
  | .local _ .vmem, ⟨3, _⟩ => ⟨S1x2048x100, .bf16⟩
  | .local _ .vmem, ⟨4, _⟩ => ⟨S1x2048x100, .bf16⟩
  | .local _ .vmem, ⟨5, _⟩ => ⟨S1x2048x256, .f32⟩
  | .local _ .vmem, ⟨6, _⟩ => ⟨S1x2048x256, .f32⟩
  | .local _ .vmem, ⟨7, _⟩ => ⟨S256x100, .f32⟩
  | .local _ .vmem, ⟨8, _⟩ => ⟨S1x2048x100, .bf16⟩
  | .local _ .vmem, ⟨9, _⟩ => ⟨S1x2048x100, .bf16⟩
  | .local _ .vmem, ⟨10, _⟩ => ⟨S1x1024x100, .bf16⟩
  | .local _ .vmem, ⟨11, _⟩ => ⟨S1x1024x100, .bf16⟩
  | .local _ .vmem, ⟨12, _⟩ => ⟨S1x1024x100, .bf16⟩
  | .local _ .vmem, ⟨13, _⟩ => ⟨S1x1024x100, .bf16⟩
  | .local _ .vmem, ⟨14, _⟩ => ⟨S1x1024x1024, .f32⟩
  | .local _ .vmem, ⟨15, _⟩ => ⟨S1x1024x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x100 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2048x100 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![8, 2, 2], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x1024x100 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x100 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x100_S256x100_0_0 : ∀ a, (![0, 0] : Fin 2 → Nat) a + S256x100.size a ≤ S256x100.size a
  h_S256x100 : 0 < S256x100.numel
  inb_S1x2048x100_S1x2048x100_0_0_0 : ∀ a, (![0, 0, 0] : Fin 3 → Nat) a + S1x2048x100.size a ≤ S1x2048x100.size a
  h_S1x2048x100 : 0 < S1x2048x100.numel
  shapeCasts_S1x2048x100_S2048x100 : S1x2048x100.ShapeCasts S2048x100
  shapeCasts_S2048x100_S1x2048x100 : S2048x100.ShapeCasts S1x2048x100
  packedbf16_S1x2048x100_S1x2048x100_0_0_0 : (Rect.unit (s := S1x2048x100) ![0, 0, 0] S1x2048x100.size inb_S1x2048x100_S1x2048x100_0_0_0).PackedRows (EltTy.packing .bf16)
  inb_S1x1024x100_S1x1024x100_0_0_0 : ∀ a, (![0, 0, 0] : Fin 3 → Nat) a + S1x1024x100.size a ≤ S1x1024x100.size a
  h_S1x1024x100 : 0 < S1x1024x100.numel
  shapeCasts_S1x1024x100_S1024x100 : S1x1024x100.ShapeCasts S1024x100
  reduces_S1024x100_S1024 : S1024x100.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S2048x256_S256x100_S2048x100_1_0_0_1_n_n_wf : DotDims.WF S2048x256 S256x100 S2048x100 [1] [0] [0] [1] [] []
  dot_S1024x100_S1024x100_S1024x1024_1_1_0_0_n_n_wf : DotDims.WF S1024x100 S1024x100 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x100.size a ≤ S256x100.size a
  hwx0_1 : ∀ i : grid0.Coords, EltTy.bits .f32 = 32 ∨ (Rect.block (s := S256x100) S256x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x100.size a ≤ S8x2048x100.size a
  hwx0_2 : ∀ i : grid0.Coords, EltTy.bits .bf16 = 32 ∨ (Rect.block (s := S8x2048x100) S1x2048x100.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S8x2048x256.size a
  hwx1_0 : ∀ i : grid1.Coords, EltTy.bits .f32 = 32 ∨ (Rect.block (s := S8x2048x256) S1x2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x100.size a ≤ S256x100.size a
  hwx1_1 : ∀ i : grid1.Coords, EltTy.bits .f32 = 32 ∨ (Rect.block (s := S256x100) S256x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x100.size a ≤ S8x2048x100.size a
  hwx1_2 : ∀ i : grid1.Coords, EltTy.bits .bf16 = 32 ∨ (Rect.block (s := S8x2048x100) S1x2048x100.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x100.size a ≤ S8x2048x100.size a
  hwx2_0 : ∀ i : grid2.Coords, EltTy.bits .bf16 = 32 ∨ (Rect.block (s := S8x2048x100) S1x1024x100.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x100.size a ≤ S8x2048x100.size a
  hwx2_1 : ∀ i : grid2.Coords, EltTy.bits .bf16 = 32 ∨ (Rect.block (s := S8x2048x100) S1x1024x100.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S8x2048x2048.size a
  hwx2_2 : ∀ i : grid2.Coords, EltTy.bits .f32 = 32 ∨ (Rect.block (s := S8x2048x2048) S1x1024x1024.size (cc2_transform_2 i) (hinb2_2 i)).WholeWords (EltTy.packing .f32)

variable [Facts₀]

def dot_S2048x256_S256x100_S2048x100_1_0_0_1_n_n : DotDims S2048x256 S256x100 S2048x100 where
  lhsContracting := [1]
  rhsContracting := [0]
  lhsNonContracting := [0]
  rhsNonContracting := [1]
  lhsBatch := []
  rhsBatch := []
  wf := dot_S2048x256_S256x100_S2048x100_1_0_0_1_n_n_wf
def dot_S1024x100_S1024x100_S1024x1024_1_1_0_0_n_n : DotDims S1024x100 S1024x100 S1024x1024 where
  lhsContracting := [1]
  rhsContracting := [1]
  lhsNonContracting := [0]
  rhsNonContracting := [0]
  lhsBatch := []
  rhsBatch := []
  wf := dot_S1024x100_S1024x100_S1024x1024_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048x100.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S1x1024x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x1024x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x2048x256 : Shape := ⟨3, ![8, 2048, 256]⟩
abbrev S256x100 : Shape := ⟨2, ![256, 100]⟩
abbrev S8x2048x100 : Shape := ⟨3, ![8, 2048, 100]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S256x100, .f32⟩
  | .hbm, ⟨3, _⟩ => ⟨S8x2048x100, .f32⟩
  | .hbm, ⟨4, _⟩ => ⟨S8x2048x100, .f32⟩
  | .hbm, ⟨5, _⟩ => ⟨S8x2048x100, .f32⟩
  | .hbm, ⟨6, _⟩ => ⟨S_, .f32⟩
  | .hbm, ⟨7, _⟩ => ⟨S8x2048, .f32⟩
  | .hbm, ⟨8, _⟩ => ⟨S8x2048x100, .f32⟩
  | .hbm, ⟨9, _⟩ => ⟨S_, .f32⟩
  | .hbm, ⟨10, _⟩ => ⟨S8x2048, .f32⟩
  | .hbm, ⟨11, _⟩ => ⟨S8x2048x2048, .f32⟩
  | .hbm, ⟨12, _⟩ => ⟨S8x2048x1, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S8x2048x100_S8x2048_d2 : S8x2048x100.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  dot_S8x2048x256_S256x100_S8x2048x100_2_0_01_1_n_n_wf : DotDims.WF S8x2048x256 S256x100 S8x2048x100 [2] [0] [0, 1] [1] [] []
  dot_S8x2048x100_S8x2048x100_S8x2048x2048_2_2_1_1_0_0_wf : DotDims.WF S8x2048x100 S8x2048x100 S8x2048x2048 [2] [2] [1] [1] [0] [0]

variable [Facts₀]

def dot_S8x2048x256_S256x100_S8x2048x100_2_0_01_1_n_n : DotDims S8x2048x256 S256x100 S8x2048x100 where
  lhsContracting := [2]
  rhsContracting := [0]
  lhsNonContracting := [0, 1]
  rhsNonContracting := [1]
  lhsBatch := []
  rhsBatch := []
  wf := dot_S8x2048x256_S256x100_S8x2048x100_2_0_01_1_n_n_wf
def dot_S8x2048x100_S8x2048x100_S8x2048x2048_2_2_1_1_0_0 : DotDims S8x2048x100 S8x2048x100 S8x2048x2048 where
  lhsContracting := [2]
  rhsContracting := [2]
  lhsNonContracting := [1]
  rhsNonContracting := [1]
  lhsBatch := [0]
  rhsBatch := [0]
  wf := dot_S8x2048x100_S8x2048x100_S8x2048x2048_2_2_1_1_0_0_wf

class Facts : Prop extends Facts₀ where

variable [Facts]
-- ==== Proof.ProjBody.lean ====
/-
  The projection kernel's body, read at an index: the stored block is, entry by entry, the row of the loaded
  [1, 2048, 256] block times the loaded [256, 100] matrix.  The roundings to the narrow float format are the
  identity on the extended reals, the matrix unit's product into a zero accumulator is the plain sum over the
  contracted axis, and the two reshapes only add or drop the leading unit axis.
-/
import proofs.«158278_j51118700757139_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ProjBody

open Idealize.ShloMosaic Idealize.ShloMosaic.TcCoe Idealize.ShloMosaic.ValueIdx Cert.KernelIdeal Cert.KernelIdeal.Gen

/-! The operand indices of the [2048, 256] × [256, 100] product at an output index and a contraction index, axis by axis. -/

theorem lhs_row (j : S2048x100.Idx) (q : dot_S2048x256_S256x100_S2048x100_1_0_0_1_n_n.contr.Idx) :
    (dot_S2048x256_S256x100_S2048x100_1_0_0_1_n_n.lhsIdx j q 0).val = (j 0).val := by
  unfold DotDims.lhsIdx
  rw [dif_neg (show ¬(0 : Fin S2048x256.rank) ∈ dot_S2048x256_S256x100_S2048x100_1_0_0_1_n_n.lhsBatch by decide), dif_pos (show (0 : Fin S2048x256.rank) ∈ dot_S2048x256_S256x100_S2048x100_1_0_0_1_n_n.lhsNonContracting by decide)]
  rfl
theorem lhs_contr (j : S2048x100.Idx) (q : dot_S2048x256_S256x100_S2048x100_1_0_0_1_n_n.contr.Idx) :
    (dot_S2048x256_S256x100_S2048x100_1_0_0_1_n_n.lhsIdx j q 1).val = (q ⟨0, by decide⟩).val :=
  dot_S2048x256_S256x100_S2048x100_1_0_0_1_n_n.lhsIdx_val_of_single rfl j q
theorem rhs_contr (j : S2048x100.Idx) (q : dot_S2048x256_S256x100_S2048x100_1_0_0_1_n_n.contr.Idx) :
    (dot_S2048x256_S256x100_S2048x100_1_0_0_1_n_n.rhsIdx j q 0).val = (q ⟨0, by decide⟩).val :=
  dot_S2048x256_S256x100_S2048x100_1_0_0_1_n_n.rhsIdx_val_of_single rfl j q
theorem rhs_col (j : S2048x100.Idx) (q : dot_S2048x256_S256x100_S2048x100_1_0_0_1_n_n.contr.Idx) :
    (dot_S2048x256_S256x100_S2048x100_1_0_0_1_n_n.rhsIdx j q 1).val = (j 1).val := by
  unfold DotDims.rhsIdx
  rw [dif_neg (show ¬(1 : Fin S256x100.rank) ∈ dot_S2048x256_S256x100_S2048x100_1_0_0_1_n_n.rhsBatch by decide), dif_pos (show (1 : Fin S256x100.rank) ∈ dot_S2048x256_S256x100_S2048x100_1_0_0_1_n_n.rhsNonContracting by decide)]
  rfl

/-- Entry (u, r, k) of the stored block is Σ_d x[0, r, d] · a[d, k]. -/
theorem stored_at (x : Vec Ideal S1x2048x256 .f32) (a : Vec Ideal S256x100 .f32) (u : Fin 1) (r : Fin 2048) (k : Fin 100) :
    k0_pay1 (F := Ideal) x a (ix3 u r k) = ∑ d : Fin 256, x (ix3 (0 : Fin 1) r d) * a (ix2 d k) := by
  unfold k0_pay1
  rw [shapeCast_ab_1ab_apply, truncf_apply]
  refine (Ideal.matmul_constant_zero_apply dot_S2048x256_S256x100_S2048x100_1_0_0_1_n_n none _ _ (ix2 r k)).trans ?_
  rw [← Equiv.sum_comp (contrEquiv1 dot_S2048x256_S256x100_S2048x100_1_0_0_1_n_n 256 rfl rfl).symm]
  refine Finset.sum_congr rfl fun d _ => ?_
  have hd := contrEquiv1_symm_val dot_S2048x256_S256x100_S2048x100_1_0_0_1_n_n 256 rfl rfl d
  have el : dot_S2048x256_S256x100_S2048x100_1_0_0_1_n_n.lhsIdx (ix2 r k) ((contrEquiv1 dot_S2048x256_S256x100_S2048x100_1_0_0_1_n_n 256 rfl rfl).symm d) = ix2 r d := funext fun ax => Fin.ext (by
    match ax with
    | ⟨0, _⟩ => exact lhs_row _ _
    | ⟨1, _⟩ => exact (lhs_contr _ _).trans hd)
  have er : dot_S2048x256_S256x100_S2048x100_1_0_0_1_n_n.rhsIdx (ix2 r k) ((contrEquiv1 dot_S2048x256_S256x100_S2048x100_1_0_0_1_n_n 256 rfl rfl).symm d) = ix2 d k := funext fun ax => Fin.ext (by
    match ax with
    | ⟨0, _⟩ => exact (rhs_contr _ _).trans hd
    | ⟨1, _⟩ => exact rhs_col _ _)
  rw [el, er, truncf_apply, truncf_apply, shapeCast_1ab_ab_apply]

/-- The second projection kernel has the same body, so its stored block reads the same way. -/
theorem stored_at_second (x : Vec Ideal S1x2048x256 .f32) (a : Vec Ideal S256x100 .f32) (u : Fin 1) (r : Fin 2048) (k : Fin 100) :
    k1_pay1 (F := Ideal) x a (ix3 u r k) = ∑ d : Fin 256, x (ix3 (0 : Fin 1) r d) * a (ix2 d k) :=
  stored_at x a u r k

end Cert.KernelIdeal.ProjBody

end
-- ==== Proof.PairDist.lean ====
/-
  The function both programs compute, written once over the extended reals.

  For X, Y : [8, 2048, 256] and A : [256, 100] put P = X·A and Q = Y·A (each row of a batch entry times A:
  P[b, r, k] = Σ_d X[b, r, d] · A[d, k]).  The result is, for a batch entry b, a row n of Q and a row m of P,

      max ( (Σ_k Q[b,n,k]² + Σ_k P[b,m,k]²) − 2 · Σ_k Q[b,n,k] · P[b,m,k] , 0 ),

  the squared distance ‖Q[b,n,:] − P[b,m,:]‖² expanded into its two squared norms and the cross term, clipped
  at zero.  Nothing here depends on a program: the index constructors are over the literal extents.
-/
import Idealize.ShloMosaic.PureOps.Ideal
import Idealize.ShloMosaic.Lib.ValueIdx

noncomputable section

namespace Cert.PairDist

open Idealize.ShloMosaic Idealize.ShloMosaic.ValueIdx

/-- An index of a [8, 2048, 256] array from its three coordinates. -/
abbrev atIn (b : Fin 8) (r : Fin 2048) (d : Fin 256) : (⟨3, ![8, 2048, 256]⟩ : Shape).Idx := ix3 b r d
/-- An index of the [256, 100] matrix. -/
abbrev atMat (d : Fin 256) (k : Fin 100) : (⟨2, ![256, 100]⟩ : Shape).Idx := ix2 d k
/-- An index of a projected [8, 2048, 100] array. -/
abbrev atProj (b : Fin 8) (r : Fin 2048) (k : Fin 100) : (⟨3, ![8, 2048, 100]⟩ : Shape).Idx := ix3 b r k
/-- An index of the [8, 2048, 2048] result. -/
abbrev atOut (b : Fin 8) (n : Fin 2048) (m : Fin 2048) : (⟨3, ![8, 2048, 2048]⟩ : Shape).Idx := ix3 b n m

/-- One entry of a row times the matrix: Σ_d X[b, r, d] · A[d, k]. -/
def projAt (X : (⟨3, ![8, 2048, 256]⟩ : Shape).Idx → EReal) (A : (⟨2, ![256, 100]⟩ : Shape).Idx → EReal)
    (b : Fin 8) (r : Fin 2048) (k : Fin 100) : EReal :=
  ∑ d : Fin 256, X (atIn b r d) * A (atMat d k)

/-- The projected array X·A. -/
def proj (X : (⟨3, ![8, 2048, 256]⟩ : Shape).Idx → EReal) (A : (⟨2, ![256, 100]⟩ : Shape).Idx → EReal) :
    (⟨3, ![8, 2048, 100]⟩ : Shape).Idx → EReal :=
  fun i => projAt X A ⟨(i 0).val, (i 0).isLt⟩ ⟨(i 1).val, (i 1).isLt⟩ ⟨(i 2).val, (i 2).isLt⟩

theorem proj_at (X : (⟨3, ![8, 2048, 256]⟩ : Shape).Idx → EReal) (A : (⟨2, ![256, 100]⟩ : Shape).Idx → EReal)
    (b : Fin 8) (r : Fin 2048) (k : Fin 100) : proj X A (atProj b r k) = projAt X A b r k := rfl

/-- The clipped expanded squared distance between row n of Q and row m of P in batch entry b. -/
def distAt (Q P : (⟨3, ![8, 2048, 100]⟩ : Shape).Idx → EReal) (b : Fin 8) (n m : Fin 2048) : EReal :=
  max ((∑ k : Fin 100, Q (atProj b n k) * Q (atProj b n k) + ∑ k : Fin 100, P (atProj b m k) * P (atProj b m k))
        - Ideal.ofBits .f32 0x40000000#32 * ∑ k : Fin 100, Q (atProj b n k) * P (atProj b m k))
      (Ideal.ofBits .f32 0x00000000#32)

/-- The whole result array. -/
def dist (Q P : (⟨3, ![8, 2048, 100]⟩ : Shape).Idx → EReal) : (⟨3, ![8, 2048, 2048]⟩ : Shape).Idx → EReal :=
  fun i => distAt Q P ⟨(i 0).val, (i 0).isLt⟩ ⟨(i 1).val, (i 1).isLt⟩ ⟨(i 2).val, (i 2).isLt⟩

theorem dist_at (Q P : (⟨3, ![8, 2048, 100]⟩ : Shape).Idx → EReal) (b : Fin 8) (n m : Fin 2048) :
    dist Q P (atOut b n m) = distAt Q P b n m := rfl

end Cert.PairDist

end
-- ==== Proof.ProjFirst.lean ====
/-
  The first projection launch, read as a value.  Its grid has one point per batch entry b; the point's input
  blocks are the whole [2048, 256] slab b of the launch's row array and the whole [256, 100] matrix, and what it
  writes back is the [2048, 100] slab b of the launch's output array.  So every point's written block is its
  block of (row array)·(matrix), the eight blocks tile the output array, and after the launch the output array
  holds that product — for whatever contents the launch finds in its arrays.
-/
import proofs.«158278_j51118700757139_1_alg».proof.Proof.Gen.KernelIdeal.Frame
import proofs.«158278_j51118700757139_1_alg».proof.Proof.ProjBody
import proofs.«158278_j51118700757139_1_alg».proof.Proof.PairDist
import Idealize.ShloMosaic.Lib.Pipeline.Value

set_option maxRecDepth 16384

noncomputable section

namespace Cert.KernelIdeal.ProjFirst

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices at a grid point: the batch entry on the leading axis of the row windows, zero elsewhere. -/
theorem block_indices : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The batch entry a grid point works on. -/
def batchOf (t : Fin cfg0.N) : Fin 8 := ⟨t.val, lt_of_lt_of_eq t.isLt (N_0 : cfg0.N = 8)⟩

/-- The point's block of the row array is the batch entry's slab. -/
theorem rows_read (c : Dev nD) (t : Fin cfg0.N) (r : Fin 2048) (d : Fin 256) :
    iblk0 V c 0 t (ix3 (0 : Fin 1) r d) = V c main_arg0 (Cert.PairDist.atIn (batchOf t) r d) := by
  obtain ⟨e0, e1, e2, -⟩ := block_indices t
  show V c main_arg0 (((cfg0.win 0).blk t).view.emb (ix3 (0 : Fin 1) r d)) = _
  refine congrArg (V c main_arg0) (funext fun a => Fin.ext ?_)
  match a with
  | ⟨0, _⟩ => show win0_0.index t (0 : Fin 3) * 1 + 1 * (0 : Fin 1).val = t.val; rw [e0]; simp
  | ⟨1, _⟩ => show win0_0.index t (1 : Fin 3) * 2048 + 1 * r.val = r.val; rw [e1]; omega
  | ⟨2, _⟩ => show win0_0.index t (2 : Fin 3) * 256 + 1 * d.val = d.val; rw [e2]; omega

/-- The point's block of the matrix is the whole matrix. -/
theorem matrix_read (c : Dev nD) (t : Fin cfg0.N) (d : Fin 256) (k : Fin 100) :
    iblk0 V c 1 t (ix2 d k) = V c main_arg2 (Cert.PairDist.atMat d k) := by
  obtain ⟨-, -, -, e3, e4, -⟩ := block_indices t
  show V c main_arg2 (((cfg0.win 1).blk t).view.emb (ix2 d k)) = _
  refine congrArg (V c main_arg2) (funext fun a => Fin.ext ?_)
  match a with
  | ⟨0, _⟩ => show win0_1.index t (0 : Fin 2) * 256 + 1 * d.val = d.val; rw [e3]; omega
  | ⟨1, _⟩ => show win0_1.index t (1 : Fin 2) * 100 + 1 * k.val = k.val; rw [e4]; omega

/-- Where the point's output block sits in the output array. -/
theorem out_place (t : Fin cfg0.N) (u : Fin 1) (r : Fin 2048) (k : Fin 100) :
    ((cfg0.win 2).blk t).view.emb (ix3 u r k) = Cert.PairDist.atProj (batchOf t) r k := by
  obtain ⟨-, -, -, -, -, e5, e6, e7⟩ := block_indices t
  refine funext fun a => Fin.ext ?_
  match a with
  | ⟨0, _⟩ => show win0_2.index t (0 : Fin 3) * 1 + 1 * u.val = t.val; rw [e5]; omega
  | ⟨1, _⟩ => show win0_2.index t (1 : Fin 3) * 2048 + 1 * r.val = r.val; rw [e6]; omega
  | ⟨2, _⟩ => show win0_2.index t (2 : Fin 3) * 100 + 1 * k.val = k.val; rw [e7]; omega

/-- What a point writes back is its block of the product. -/
theorem written_eq (c : Dev nD) (t : Fin cfg0.N) :
    (dat0 V c).flushed 2 t = ((cfg0.win 2).blk t).view.read (Elt Ideal) (Cert.PairDist.proj (V c main_arg0) (V c main_arg2)) := by
  show (cfg0.win 2).cut (grid0.coords t) ((dat0 V c).after 2 t) = _
  rw [after0_2]
  unfold out0_2
  rw [View.canon_unit_zero zero3]
  simp only [View.ld_unit_zero (S := S1x2048x256) zero3, View.ld_unit_zero (S := S256x100) zero2]
  funext j
  obtain ⟨u, r, k, rfl⟩ : ∃ (u : Fin 1) (r : Fin 2048) (k : Fin 100), j = ix3 u r k := ⟨j 0, j 1, j 2, eq_ix3 j⟩
  show k0_pay1 (F := Ideal) (iblk0 V c 0 t) (iblk0 V c 1 t) (ix3 u r k) = Cert.PairDist.proj (V c main_arg0) (V c main_arg2) (((cfg0.win 2).blk t).view.emb (ix3 u r k))
  rw [Cert.KernelIdeal.ProjBody.stored_at, out_place, Cert.PairDist.proj_at]
  unfold Cert.PairDist.projAt
  refine Finset.sum_congr rfl fun d _ => ?_
  rw [rows_read, matrix_read]

/-- An index of the output array lies in a point's block iff each coordinate lies in the block's range. -/
theorem in_block (t : Fin cfg0.N) (i : S8x2048x100.Idx) :
    i ∈ ((cfg0.win 2).blk t).view.set ↔ ∀ a : Fin 3, win0_2.index t a * S1x2048x100.size a ≤ (i a).val ∧ (i a).val < win0_2.index t a * S1x2048x100.size a + S1x2048x100.size a := by
  show i ∈ ((View.whole main_v0).slice (win0_2.rect t)).set ↔ _
  rw [View.set_slice_whole, Rect.mem_set_unit]
  exact Iff.rfl

/-- Every index of the output array is in the block of the point of its batch entry. -/
theorem covered (i : S8x2048x100.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 100 := (i 2).isLt
  let t : Fin cfg0.N := ⟨(i 0).val, lt_of_lt_of_eq h0 (N_0 : cfg0.N = 8).symm⟩
  have ht : t.val = (i 0).val := rfl
  obtain ⟨-, -, -, -, -, e5, e6, e7⟩ := block_indices t
  refine ⟨t, flush0_2 t, ?_⟩
  rw [in_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 100 ≤ (i 2).val ∧ (i 2).val < win0_2.index t (2 : Fin 3) * 100 + 100; omega

/-- After the launch the output array holds the product of the arrays the launch found. -/
theorem array_after (c : Dev nD) :
    (dat0 V c).arrAt 2 cfg0.N = Cert.PairDist.proj (V c main_arg0) (V c main_arg2) :=
  (dat0 V c).arrAt_eq_of_cover 2 _ (fun t _ => written_eq V c t) covered

end Cert.KernelIdeal.ProjFirst

end
-- ==== Proof.ProjSecond.lean ====
/-
  The second projection launch, read as a value.  Its grid has one point per batch entry b; the point's input
  blocks are the whole [2048, 256] slab b of the launch's row array and the whole [256, 100] matrix, and what it
  writes back is the [2048, 100] slab b of the launch's output array.  So every point's written block is its
  block of (row array)·(matrix), the eight blocks tile the output array, and after the launch the output array
  holds that product — for whatever contents the launch finds in its arrays.
-/
import proofs.«158278_j51118700757139_1_alg».proof.Proof.Gen.KernelIdeal.Frame
import proofs.«158278_j51118700757139_1_alg».proof.Proof.ProjBody
import proofs.«158278_j51118700757139_1_alg».proof.Proof.PairDist
import Idealize.ShloMosaic.Lib.Pipeline.Value

set_option maxRecDepth 16384

noncomputable section

namespace Cert.KernelIdeal.ProjSecond

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices at a grid point: the batch entry on the leading axis of the row windows, zero elsewhere. -/
theorem block_indices : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The batch entry a grid point works on. -/
def batchOf (t : Fin cfg1.N) : Fin 8 := ⟨t.val, lt_of_lt_of_eq t.isLt (N_1 : cfg1.N = 8)⟩

/-- The point's block of the row array is the batch entry's slab. -/
theorem rows_read (c : Dev nD) (t : Fin cfg1.N) (r : Fin 2048) (d : Fin 256) :
    iblk1 V c 0 t (ix3 (0 : Fin 1) r d) = V c main_arg1 (Cert.PairDist.atIn (batchOf t) r d) := by
  obtain ⟨e0, e1, e2, -⟩ := block_indices t
  show V c main_arg1 (((cfg1.win 0).blk t).view.emb (ix3 (0 : Fin 1) r d)) = _
  refine congrArg (V c main_arg1) (funext fun a => Fin.ext ?_)
  match a with
  | ⟨0, _⟩ => show win1_0.index t (0 : Fin 3) * 1 + 1 * (0 : Fin 1).val = t.val; rw [e0]; simp
  | ⟨1, _⟩ => show win1_0.index t (1 : Fin 3) * 2048 + 1 * r.val = r.val; rw [e1]; omega
  | ⟨2, _⟩ => show win1_0.index t (2 : Fin 3) * 256 + 1 * d.val = d.val; rw [e2]; omega

/-- The point's block of the matrix is the whole matrix. -/
theorem matrix_read (c : Dev nD) (t : Fin cfg1.N) (d : Fin 256) (k : Fin 100) :
    iblk1 V c 1 t (ix2 d k) = V c main_arg2 (Cert.PairDist.atMat d k) := by
  obtain ⟨-, -, -, e3, e4, -⟩ := block_indices t
  show V c main_arg2 (((cfg1.win 1).blk t).view.emb (ix2 d k)) = _
  refine congrArg (V c main_arg2) (funext fun a => Fin.ext ?_)
  match a with
  | ⟨0, _⟩ => show win1_1.index t (0 : Fin 2) * 256 + 1 * d.val = d.val; rw [e3]; omega
  | ⟨1, _⟩ => show win1_1.index t (1 : Fin 2) * 100 + 1 * k.val = k.val; rw [e4]; omega

/-- Where the point's output block sits in the output array. -/
theorem out_place (t : Fin cfg1.N) (u : Fin 1) (r : Fin 2048) (k : Fin 100) :
    ((cfg1.win 2).blk t).view.emb (ix3 u r k) = Cert.PairDist.atProj (batchOf t) r k := by
  obtain ⟨-, -, -, -, -, e5, e6, e7⟩ := block_indices t
  refine funext fun a => Fin.ext ?_
  match a with
  | ⟨0, _⟩ => show win1_2.index t (0 : Fin 3) * 1 + 1 * u.val = t.val; rw [e5]; omega
  | ⟨1, _⟩ => show win1_2.index t (1 : Fin 3) * 2048 + 1 * r.val = r.val; rw [e6]; omega
  | ⟨2, _⟩ => show win1_2.index t (2 : Fin 3) * 100 + 1 * k.val = k.val; rw [e7]; omega

/-- What a point writes back is its block of the product. -/
theorem written_eq (c : Dev nD) (t : Fin cfg1.N) :
    (dat1 V c).flushed 2 t = ((cfg1.win 2).blk t).view.read (Elt Ideal) (Cert.PairDist.proj (V c main_arg1) (V c main_arg2)) := by
  show (cfg1.win 2).cut (grid1.coords t) ((dat1 V c).after 2 t) = _
  rw [after1_2]
  unfold out1_2
  rw [View.canon_unit_zero zero3]
  simp only [View.ld_unit_zero (S := S1x2048x256) zero3, View.ld_unit_zero (S := S256x100) zero2]
  funext j
  obtain ⟨u, r, k, rfl⟩ : ∃ (u : Fin 1) (r : Fin 2048) (k : Fin 100), j = ix3 u r k := ⟨j 0, j 1, j 2, eq_ix3 j⟩
  show k1_pay1 (F := Ideal) (iblk1 V c 0 t) (iblk1 V c 1 t) (ix3 u r k) = Cert.PairDist.proj (V c main_arg1) (V c main_arg2) (((cfg1.win 2).blk t).view.emb (ix3 u r k))
  rw [Cert.KernelIdeal.ProjBody.stored_at_second, out_place, Cert.PairDist.proj_at]
  unfold Cert.PairDist.projAt
  refine Finset.sum_congr rfl fun d _ => ?_
  rw [rows_read, matrix_read]

/-- An index of the output array lies in a point's block iff each coordinate lies in the block's range. -/
theorem in_block (t : Fin cfg1.N) (i : S8x2048x100.Idx) :
    i ∈ ((cfg1.win 2).blk t).view.set ↔ ∀ a : Fin 3, win1_2.index t a * S1x2048x100.size a ≤ (i a).val ∧ (i a).val < win1_2.index t a * S1x2048x100.size a + S1x2048x100.size a := by
  show i ∈ ((View.whole main_v1).slice (win1_2.rect t)).set ↔ _
  rw [View.set_slice_whole, Rect.mem_set_unit]
  exact Iff.rfl

/-- Every index of the output array is in the block of the point of its batch entry. -/
theorem covered (i : S8x2048x100.Idx) : ∃ t : Fin cfg1.N, (cfg1.win 2).flush t = true ∧ i ∈ ((cfg1.win 2).blk t).view.set := by
  have h0 : (i 0).val < 8 := (i 0).isLt
  have h1 : (i 1).val < 2048 := (i 1).isLt
  have h2 : (i 2).val < 100 := (i 2).isLt
  let t : Fin cfg1.N := ⟨(i 0).val, lt_of_lt_of_eq h0 (N_1 : cfg1.N = 8).symm⟩
  have ht : t.val = (i 0).val := rfl
  obtain ⟨-, -, -, -, -, e5, e6, e7⟩ := block_indices t
  refine ⟨t, flush1_2 t, ?_⟩
  rw [in_block]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 2048 ≤ (i 1).val ∧ (i 1).val < win1_2.index t (1 : Fin 3) * 2048 + 2048; omega
  | ⟨2, _⟩ => show win1_2.index t (2 : Fin 3) * 100 ≤ (i 2).val ∧ (i 2).val < win1_2.index t (2 : Fin 3) * 100 + 100; omega

/-- After the launch the output array holds the product of the arrays the launch found. -/
theorem array_after (c : Dev nD) :
    (dat1 V c).arrAt 2 cfg1.N = Cert.PairDist.proj (V c main_arg1) (V c main_arg2) :=
  (dat1 V c).arrAt_eq_of_cover 2 _ (fun t _ => written_eq V c t) covered

end Cert.KernelIdeal.ProjSecond

end
-- ==== Proof.CrossBody.lean ====
/-
  The pairwise kernel's body, read at an index.  From a loaded [1, 1024, 100] block q of rows and a loaded
  [1, 1024, 100] block p of rows the stored [1, 1024, 1024] block holds, at (u, n, m),

      max ( (Σ_k q[0,n,k]² + Σ_k p[0,m,k]²) − 2 · Σ_k q[0,n,k] · p[0,m,k] , 0 ).

  The row sums of squares are lane reductions from a zero accumulator (plain sums on the extended reals); the
  one over q is kept as a column and spread along the rows, the one over p is turned into a row (a transpose of
  a column) and spread down the columns; the cross term is the matrix unit's product of q with p contracted on
  the last axis of both, into a zero accumulator.  Widening the narrow floats is the identity.
-/
import proofs.«158278_j51118700757139_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CrossBody

open Idealize.ShloMosaic Idealize.ShloMosaic.TcCoe Idealize.ShloMosaic.ValueIdx Cert.KernelIdeal Cert.KernelIdeal.Gen

/-! ## Layout steps of a kept-dimension row sum -/

/-- A length-a vector cast to a column [a, 1] reads, at (i, v), the vector at i. -/
theorem cast_to_column {α : Type} {a : ℕ} (x : (⟨1, ![a]⟩ : Shape).Idx → α) (h : (⟨1, ![a]⟩ : Shape).ShapeCasts ⟨2, ![a, 1]⟩)
    (i : Fin a) (v : Fin 1) : shapeCast ⟨2, ![a, 1]⟩ x h (ix2 i v) = x (ix1 i) :=
  shapeCast_apply x h _ _ (by
    have hv : v.val = 0 := by omega
    rw [Shape.rowMajor_val_two, Shape.rowMajor_val_one]
    show i.val = i.val * 1 + v.val
    rw [hv, Nat.mul_one, Nat.add_zero])

/-- A column [a, 1] spread along the rows to [a, b] reads, at (i, j), the column at (i, 0). -/
theorem spread_column {α : Type} {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-! ## The operand indices of the [1024, 100] × [1024, 100]ᵀ product, axis by axis -/

theorem lhs_row (j : S1024x1024.Idx) (q : dot_S1024x100_S1024x100_S1024x1024_1_1_0_0_n_n.contr.Idx) :
    (dot_S1024x100_S1024x100_S1024x1024_1_1_0_0_n_n.lhsIdx j q 0).val = (j 0).val := by
  unfold DotDims.lhsIdx
  rw [dif_neg (show ¬(0 : Fin S1024x100.rank) ∈ dot_S1024x100_S1024x100_S1024x1024_1_1_0_0_n_n.lhsBatch by decide), dif_pos (show (0 : Fin S1024x100.rank) ∈ dot_S1024x100_S1024x100_S1024x1024_1_1_0_0_n_n.lhsNonContracting by decide)]
  rfl
theorem lhs_contr (j : S1024x1024.Idx) (q : dot_S1024x100_S1024x100_S1024x1024_1_1_0_0_n_n.contr.Idx) :
    (dot_S1024x100_S1024x100_S1024x1024_1_1_0_0_n_n.lhsIdx j q 1).val = (q ⟨0, by decide⟩).val :=
  dot_S1024x100_S1024x100_S1024x1024_1_1_0_0_n_n.lhsIdx_val_of_single rfl j q
theorem rhs_row (j : S1024x1024.Idx) (q : dot_S1024x100_S1024x100_S1024x1024_1_1_0_0_n_n.contr.Idx) :
    (dot_S1024x100_S1024x100_S1024x1024_1_1_0_0_n_n.rhsIdx j q 0).val = (j 1).val := by
  unfold DotDims.rhsIdx
  rw [dif_neg (show ¬(0 : Fin S1024x100.rank) ∈ dot_S1024x100_S1024x100_S1024x1024_1_1_0_0_n_n.rhsBatch by decide), dif_pos (show (0 : Fin S1024x100.rank) ∈ dot_S1024x100_S1024x100_S1024x1024_1_1_0_0_n_n.rhsNonContracting by decide)]
  rfl
theorem rhs_contr (j : S1024x1024.Idx) (q : dot_S1024x100_S1024x100_S1024x1024_1_1_0_0_n_n.contr.Idx) :
    (dot_S1024x100_S1024x100_S1024x1024_1_1_0_0_n_n.rhsIdx j q 1).val = (q ⟨0, by decide⟩).val :=
  dot_S1024x100_S1024x100_S1024x1024_1_1_0_0_n_n.rhsIdx_val_of_single rfl j q

/-- The cross term at (n, m): Σ_k q[n, k] · p[m, k]. -/
theorem cross_at (q p : FVec Ideal S1024x100 .bf16) (n m : Fin 1024) :
    matmul dot_S1024x100_S1024x100_S1024x1024_1_1_0_0_n_n none q p (constant S1024x1024 .f32 0x00000000#32) (ix2 n m)
      = ∑ k : Fin 100, q (ix2 n k) * p (ix2 m k) := by
  refine (Ideal.matmul_constant_zero_apply dot_S1024x100_S1024x100_S1024x1024_1_1_0_0_n_n none _ _ (ix2 n m)).trans ?_
  rw [← Equiv.sum_comp (contrEquiv1 dot_S1024x100_S1024x100_S1024x1024_1_1_0_0_n_n 100 rfl rfl).symm]
  refine Finset.sum_congr rfl fun k _ => ?_
  have hk := contrEquiv1_symm_val dot_S1024x100_S1024x100_S1024x1024_1_1_0_0_n_n 100 rfl rfl k
  have el : dot_S1024x100_S1024x100_S1024x1024_1_1_0_0_n_n.lhsIdx (ix2 n m) ((contrEquiv1 dot_S1024x100_S1024x100_S1024x1024_1_1_0_0_n_n 100 rfl rfl).symm k) = ix2 n k := funext fun ax => Fin.ext (by
    match ax with
    | ⟨0, _⟩ => exact lhs_row _ _
    | ⟨1, _⟩ => exact (lhs_contr _ _).trans hk)
  have er : dot_S1024x100_S1024x100_S1024x1024_1_1_0_0_n_n.rhsIdx (ix2 n m) ((contrEquiv1 dot_S1024x100_S1024x100_S1024x1024_1_1_0_0_n_n 100 rfl rfl).symm k) = ix2 m k := funext fun ax => Fin.ext (by
    match ax with
    | ⟨0, _⟩ => exact rhs_row _ _
    | ⟨1, _⟩ => exact (rhs_contr _ _).trans hk)
  rw [el, er]

/-- A row's sum of squares: the lane reduction of the squares from the zero accumulator, at row n. -/
theorem rowsq_at (y : FVec Ideal S1024x100 .f32) (n : Fin 1024) :
    multiReduction .add [1] S1024 (mulf y y) 0x00000000#32 reduces_S1024x100_S1024 (.inl rfl) rfl (ix1 n)
      = ∑ k : Fin 100, y (ix2 n k) * y (ix2 n k) := by
  refine (Ideal.multiReduction_add_single (mulf y y) 0x00000000#32 reduces_S1024x100_S1024 (.inl rfl) rfl (ix1 n)).trans ?_
  refine Finset.sum_congr rfl fun k _ => ?_
  have e : reduces_S1024x100_S1024.lift (ix1 n) k = ix2 n (⟨k.val, k.isLt⟩ : Fin 100) :=
    funext fun ax => Fin.ext (by match ax with | ⟨0, _⟩ => rfl | ⟨1, _⟩ => rfl)
  rw [e]
  rfl

/-- Entry (u, n, m) of the stored block. -/
theorem stored_at (q p : Vec Ideal S1x1024x100 .bf16) (u : Fin 1) (n m : Fin 1024) :
    k2_pay1 (F := Ideal) q p (ix3 u n m)
      = max ((∑ k : Fin 100, q (ix3 (0 : Fin 1) n k) * q (ix3 (0 : Fin 1) n k) + ∑ k : Fin 100, p (ix3 (0 : Fin 1) m k) * p (ix3 (0 : Fin 1) m k))
          - Ideal.ofBits .f32 0x40000000#32 * ∑ k : Fin 100, q (ix3 (0 : Fin 1) n k) * p (ix3 (0 : Fin 1) m k))
        (Ideal.ofBits .f32 0x00000000#32) := by
  unfold k2_pay1
  rw [shapeCast_ab_1ab_apply, maximumf_apply, subf_apply, addf_apply, mulf_apply, broadcast_apply, broadcast_apply,
    spread_column, cast_to_column, broadcastTo_1b_ab_apply, transpose_ix2_apply, cast_to_column]
  rw [rowsq_at, rowsq_at, cross_at]
  simp only [extf_apply, shapeCast_1ab_ab_apply]
  rfl

end Cert.KernelIdeal.CrossBody

end
-- ==== Proof.Pairwise.lean ====
/-
  The pairwise launch, read as a value.  Its grid is (batch entry b, row tile ni, column tile mi); the point's
  first input block is rows [1024·ni, 1024·ni + 1024) of slab b of the launch's first array Q, the second is
  rows [1024·mi, 1024·mi + 1024) of slab b of its second array P, and it writes back tile (ni, mi) of slab b of
  the output.  The body's entry (n, m) depends only on row n of the first block and row m of the second, so each
  written tile is its tile of the clipped expanded squared distance between rows of Q and rows of P; the 32 tiles
  fill the output array, which therefore ends holding that function of the arrays the launch found.
-/
import proofs.«158278_j51118700757139_1_alg».proof.Proof.Gen.KernelIdeal.Frame
import proofs.«158278_j51118700757139_1_alg».proof.Proof.CrossBody
import proofs.«158278_j51118700757139_1_alg».proof.Proof.PairDist
import Idealize.ShloMosaic.Lib.Pipeline.Value

set_option maxRecDepth 16384

noncomputable section

namespace Cert.KernelIdeal.Pairwise

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem zero3 : (![0, 0, 0] : Fin 3 → Nat) = fun _ => 0 := funext fun a => by fin_cases a <;> rfl

/-- The block indices at a grid point: both inputs share the output's batch entry, the first input follows the
    output's row tile and the second its column tile; their last axis is whole.  The output's block indices stay in range. -/
theorem block_indices : ∀ t : Fin cfg2.N, win2_0.index t (0 : Fin 3) = win2_2.index t (0 : Fin 3) ∧ win2_0.index t (1 : Fin 3) = win2_2.index t (1 : Fin 3) ∧ win2_0.index t (2 : Fin 3) = 0
    ∧ win2_1.index t (0 : Fin 3) = win2_2.index t (0 : Fin 3) ∧ win2_1.index t (1 : Fin 3) = win2_2.index t (2 : Fin 3) ∧ win2_1.index t (2 : Fin 3) = 0
    ∧ win2_2.index t (0 : Fin 3) ≤ 7 ∧ win2_2.index t (1 : Fin 3) ≤ 1 ∧ win2_2.index t (2 : Fin 3) ≤ 1 :=
  (by decide +kernel : ∀ t : Fin grid2.N, _)

/-- Every tile of the output is some point's. -/
theorem tile_onto : ∀ (q0 : Fin 8) (q1 : Fin 2) (q2 : Fin 2), ∃ t : Fin cfg2.N, win2_2.index t = ![q0.val, q1.val, q2.val] :=
  (by decide +kernel : ∀ (q0 : Fin 8) (q1 : Fin 2) (q2 : Fin 2), ∃ t : Fin grid2.N, win2_2.index t = ![q0.val, q1.val, q2.val])

/-- The batch entry, the row and the column of the output array that entry (n, m) of a point's tile is. -/
def batchOf (t : Fin cfg2.N) : Fin 8 := ⟨win2_2.index t (0 : Fin 3), by have := (block_indices t).2.2.2.2.2.2.1; omega⟩
def rowOf (t : Fin cfg2.N) (n : Fin 1024) : Fin 2048 := ⟨win2_2.index t (1 : Fin 3) * 1024 + n.val, by have := (block_indices t).2.2.2.2.2.2.2.1; have := n.isLt; omega⟩
def colOf (t : Fin cfg2.N) (m : Fin 1024) : Fin 2048 := ⟨win2_2.index t (2 : Fin 3) * 1024 + m.val, by have := (block_indices t).2.2.2.2.2.2.2.2; have := m.isLt; omega⟩

/-- The point's block of the first array: the rows of its row tile. -/
theorem rows_read (c : Dev nD) (t : Fin cfg2.N) (n : Fin 1024) (k : Fin 100) :
    iblk2 V c 0 t (ix3 (0 : Fin 1) n k) = V c main_v1 (Cert.PairDist.atProj (batchOf t) (rowOf t n) k) := by
  obtain ⟨e0, e1, e2, -⟩ := block_indices t
  show V c main_v1 (((cfg2.win 0).blk t).view.emb (ix3 (0 : Fin 1) n k)) = _
  refine congrArg (V c main_v1) (funext fun a => Fin.ext ?_)
  match a with
  | ⟨0, _⟩ => show win2_0.index t (0 : Fin 3) * 1 + 1 * (0 : Fin 1).val = win2_2.index t (0 : Fin 3); rw [e0]; simp
  | ⟨1, _⟩ => show win2_0.index t (1 : Fin 3) * 1024 + 1 * n.val = win2_2.index t (1 : Fin 3) * 1024 + n.val; rw [e1]; omega
  | ⟨2, _⟩ => show win2_0.index t (2 : Fin 3) * 100 + 1 * k.val = k.val; rw [e2]; omega

/-- The point's block of the second array: the rows of its column tile. -/
theorem cols_read (c : Dev nD) (t : Fin cfg2.N) (m : Fin 1024) (k : Fin 100) :
    iblk2 V c 1 t (ix3 (0 : Fin 1) m k) = V c main_v0 (Cert.PairDist.atProj (batchOf t) (colOf t m) k) := by
  obtain ⟨-, -, -, e3, e4, e5, -⟩ := block_indices t
  show V c main_v0 (((cfg2.win 1).blk t).view.emb (ix3 (0 : Fin 1) m k)) = _
  refine congrArg (V c main_v0) (funext fun a => Fin.ext ?_)
  match a with
  | ⟨0, _⟩ => show win2_1.index t (0 : Fin 3) * 1 + 1 * (0 : Fin 1).val = win2_2.index t (0 : Fin 3); rw [e3]; simp
  | ⟨1, _⟩ => show win2_1.index t (1 : Fin 3) * 1024 + 1 * m.val = win2_2.index t (2 : Fin 3) * 1024 + m.val; rw [e4]; omega
  | ⟨2, _⟩ => show win2_1.index t (2 : Fin 3) * 100 + 1 * k.val = k.val; rw [e5]; omega

/-- Where the point's output tile sits in the output array. -/
theorem out_place (t : Fin cfg2.N) (u : Fin 1) (n m : Fin 1024) :
    ((cfg2.win 2).blk t).view.emb (ix3 u n m) = Cert.PairDist.atOut (batchOf t) (rowOf t n) (colOf t m) := by
  refine funext fun a => Fin.ext ?_
  match a with
  | ⟨0, _⟩ => show win2_2.index t (0 : Fin 3) * 1 + 1 * u.val = win2_2.index t (0 : Fin 3); omega
  | ⟨1, _⟩ => show win2_2.index t (1 : Fin 3) * 1024 + 1 * n.val = win2_2.index t (1 : Fin 3) * 1024 + n.val; omega
  | ⟨2, _⟩ => show win2_2.index t (2 : Fin 3) * 1024 + 1 * m.val = win2_2.index t (2 : Fin 3) * 1024 + m.val; omega

/-- What a point writes back is its tile of the distance array. -/
theorem written_eq (c : Dev nD) (t : Fin cfg2.N) :
    (dat2 V c).flushed 2 t = ((cfg2.win 2).blk t).view.read (Elt Ideal) (Cert.PairDist.dist (V c main_v1) (V c main_v0)) := by
  show (cfg2.win 2).cut (grid2.coords t) ((dat2 V c).after 2 t) = _
  rw [after2_2]
  unfold out2_2
  rw [View.canon_unit_zero zero3]
  simp only [View.ld_unit_zero (S := S1x1024x100) zero3]
  funext j
  obtain ⟨u, n, m, rfl⟩ : ∃ (u : Fin 1) (n : Fin 1024) (m : Fin 1024), j = ix3 u n m := ⟨j 0, j 1, j 2, eq_ix3 j⟩
  show k2_pay1 (F := Ideal) (iblk2 V c 0 t) (iblk2 V c 1 t) (ix3 u n m) = Cert.PairDist.dist (V c main_v1) (V c main_v0) (((cfg2.win 2).blk t).view.emb (ix3 u n m))
  rw [Cert.KernelIdeal.CrossBody.stored_at, out_place, Cert.PairDist.dist_at]
  unfold Cert.PairDist.distAt
  simp only [rows_read, cols_read]

/-- An index of the output array lies in a point's tile iff each coordinate lies in the tile's range. -/
theorem in_block (t : Fin cfg2.N) (i : S8x2048x2048.Idx) :
    i ∈ ((cfg2.win 2).blk t).view.set ↔ ∀ a : Fin 3, win2_2.index t a * S1x1024x1024.size a ≤ (i a).val ∧ (i a).val < win2_2.index t a * S1x1024x1024.size a + S1x1024x1024.size a := by
  show i ∈ ((View.whole main_v2).slice (win2_2.rect t)).set ↔ _
  rw [View.set_slice_whole, Rect.mem_set_unit]
  exact Iff.rfl

/-- Every index of the output array is in the tile of its batch entry, row tile and column tile. -/
theorem covered (i : S8x2048x2048.Idx) : ∃ t : Fin cfg2.N, (cfg2.win 2).flush t = true ∧ i ∈ ((cfg2.win 2).blk t).view.set := by
  have h0 : (i 0).val < 8 := (i 0).isLt
  have h1 : (i 1).val < 2048 := (i 1).isLt
  have h2 : (i 2).val < 2048 := (i 2).isLt
  obtain ⟨t, ht⟩ := tile_onto ⟨(i 0).val, h0⟩ ⟨(i 1).val / 1024, by omega⟩ ⟨(i 2).val / 1024, by omega⟩
  have q0 : win2_2.index t (0 : Fin 3) = (i 0).val := congrFun ht 0
  have q1 : win2_2.index t (1 : Fin 3) = (i 1).val / 1024 := congrFun ht 1
  have q2 : win2_2.index t (2 : Fin 3) = (i 2).val / 1024 := congrFun ht 2
  refine ⟨t, flush2_2 t, ?_⟩
  rw [in_block]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 1024 ≤ (i 1).val ∧ (i 1).val < win2_2.index t (1 : Fin 3) * 1024 + 1024; omega
  | ⟨2, _⟩ => show win2_2.index t (2 : Fin 3) * 1024 ≤ (i 2).val ∧ (i 2).val < win2_2.index t (2 : Fin 3) * 1024 + 1024; omega

/-- After the launch the output array holds the distance array of the two arrays the launch found. -/
theorem array_after (c : Dev nD) :
    (dat2 V c).arrAt 2 cfg2.N = Cert.PairDist.dist (V c main_v1) (V c main_v0) :=
  (dat2 V c).arrAt_eq_of_cover 2 _ (fun t _ => written_eq V c t) covered

end Cert.KernelIdeal.Pairwise

end
-- ==== Proof.KernelValue.lean ====
/-
  The kernel's result array as one function of the three argument arrays.  The three launches run in order; the
  buffer contents between them are a fold from the launch memory: the first launch leaves P = X·A in its output
  and touches nothing else, the second leaves Q = Y·A (it still finds Y and A as launched, since the first wrote
  only P), and the pairwise launch finds Q and P there and leaves the distance array of Q and P in the result.
-/
import proofs.«158278_j51118700757139_1_alg».proof.Proof.ProjFirst
import proofs.«158278_j51118700757139_1_alg».proof.Proof.ProjSecond
import proofs.«158278_j51118700757139_1_alg».proof.Proof.Pairwise

set_option maxRecDepth 16384

noncomputable section

namespace Cert.KernelIdeal.KernelValue

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- After the first launch its output holds P = X·A. -/
theorem first_output (c : Dev nD) :
    W1 m ρ c (Proc.devRef .tc main_v0)
      = Cert.PairDist.proj (m ((c : Thread nD τ).loc main_arg0)) (m ((c : Thread nD τ).loc main_arg2)) :=
  (W1_arr m ρ c 2).trans (Cert.KernelIdeal.ProjFirst.array_after (V0 m ρ) c)

/-- The second launch still finds Y as launched: the first launch did not touch it. -/
theorem second_rows (c : Dev nD) : W1 m ρ c (Proc.devRef .tc main_arg1) = m ((c : Thread nD τ).loc main_arg1) :=
  W1_of_ne m ρ c main_arg1 (by decide)

/-- and A as launched: the first launch only read it. -/
theorem second_matrix (c : Dev nD) : W1 m ρ c (Proc.devRef .tc main_arg2) = m ((c : Thread nD τ).loc main_arg2) :=
  (W1_arr m ρ c 1).trans (((dat0 (V0 m ρ) c).arrAt_in 1 rfl _).trans (A_eq0 (V0 m ρ) c 1))

/-- After the second launch its output holds Q = Y·A. -/
theorem second_output (c : Dev nD) :
    W2 m ρ c (Proc.devRef .tc main_v1)
      = Cert.PairDist.proj (m ((c : Thread nD τ).loc main_arg1)) (m ((c : Thread nD τ).loc main_arg2)) := by
  refine (W2_arr m ρ c 2).trans ((Cert.KernelIdeal.ProjSecond.array_after (V1 m ρ) c).trans ?_)
  show Cert.PairDist.proj (W1 m ρ c (Proc.devRef .tc main_arg1)) (W1 m ρ c (Proc.devRef .tc main_arg2)) = _
  rw [second_rows, second_matrix]

/-- and P is still where the first launch left it. -/
theorem first_output_kept (c : Dev nD) :
    W2 m ρ c (Proc.devRef .tc main_v0)
      = Cert.PairDist.proj (m ((c : Thread nD τ).loc main_arg0)) (m ((c : Thread nD τ).loc main_arg2)) :=
  (W2_of_ne m ρ c main_v0 (by decide)).trans (first_output m ρ c)

/-- The result array after the run: the distance array of Q = Y·A and P = X·A. -/
theorem result_array (c : Dev nD) :
    W3 m ρ c (Proc.devRef .tc main_v2)
      = Cert.PairDist.dist (Cert.PairDist.proj (m ((c : Thread nD τ).loc main_arg1)) (m ((c : Thread nD τ).loc main_arg2)))
          (Cert.PairDist.proj (m ((c : Thread nD τ).loc main_arg0)) (m ((c : Thread nD τ).loc main_arg2))) := by
  refine (W3_arr m ρ c 2).trans ((Cert.KernelIdeal.Pairwise.array_after (V2 m ρ) c).trans ?_)
  show Cert.PairDist.dist (W2 m ρ c (Proc.devRef .tc main_v1)) (W2 m ρ c (Proc.devRef .tc main_v0)) = _
  rw [second_output, first_output_kept]

end Cert.KernelIdeal.KernelValue

end
-- ==== Proof.RefValue.lean ====
/-
  The reference, read at an index.  Its program forms P = X·A and Q = Y·A by two host products, the two arrays of
  row sums of squares by host reductions from a zero initial value, the cross term by a batched host product
  contracted on the last axis, spreads the two sums along the missing axis, and returns max(· , 0) of
  (sum of squares of Q's row + sum of squares of P's row) − 2 · cross.  Read one operation at a time that is the
  function of Proof/PairDist.lean; the only arithmetic used is 0 + s = s for the reductions' initial value.
-/
import proofs.«158278_j51118700757139_1_alg».proof.Proof.Gen.ReferenceIdeal.Read
import proofs.«158278_j51118700757139_1_alg».proof.Proof.PairDist

noncomputable section

namespace Cert.ReferenceIdeal.RefValue

open Idealize.ShloMosaic Idealize.ShloMosaic.TcCoe Idealize.ShloMosaic.ValueIdx Cert.ReferenceIdeal Cert.ReferenceIdeal.Read

/-- A host product X·A is the projected array. -/
theorem product_eq (X : (⟨S8x2048x256, .f32⟩ : BufTy).Contents (Elt Ideal)) (A : (⟨S256x100, .f32⟩ : BufTy).Contents (Elt Ideal)) :
    val_main_v0 (F := Ideal) X A = Cert.PairDist.proj X A := by
  funext i
  rw [val_main_v0_apply]
  unfold Cert.PairDist.proj Cert.PairDist.projAt
  refine Finset.sum_congr rfl fun k _ => ?_
  have el : lidx_main_v0 i k = Cert.PairDist.atIn ⟨(i 0).val, (i 0).isLt⟩ ⟨(i 1).val, (i 1).isLt⟩ k :=
    funext fun a => Fin.ext (by match a with | ⟨0, _⟩ => rfl | ⟨1, _⟩ => rfl | ⟨2, _⟩ => rfl)
  have er : ridx_main_v0 i k = Cert.PairDist.atMat k ⟨(i 2).val, (i 2).isLt⟩ :=
    funext fun a => Fin.ext (by match a with | ⟨0, _⟩ => rfl | ⟨1, _⟩ => rfl)
  rw [el, er]

theorem product_eq' (Y : (⟨S8x2048x256, .f32⟩ : BufTy).Contents (Elt Ideal)) (A : (⟨S256x100, .f32⟩ : BufTy).Contents (Elt Ideal)) :
    val_main_v1 (F := Ideal) Y A = Cert.PairDist.proj Y A := by
  funext i
  rw [val_main_v1_apply]
  unfold Cert.PairDist.proj Cert.PairDist.projAt
  refine Finset.sum_congr rfl fun k _ => ?_
  have el : lidx_main_v1 i k = Cert.PairDist.atIn ⟨(i 0).val, (i 0).isLt⟩ ⟨(i 1).val, (i 1).isLt⟩ k :=
    funext fun a => Fin.ext (by match a with | ⟨0, _⟩ => rfl | ⟨1, _⟩ => rfl | ⟨2, _⟩ => rfl)
  have er : ridx_main_v1 i k = Cert.PairDist.atMat k ⟨(i 2).val, (i 2).isLt⟩ :=
    funext fun a => Fin.ext (by match a with | ⟨0, _⟩ => rfl | ⟨1, _⟩ => rfl)
  rw [el, er]

/-- The reference's result is the distance array of Q = Y·A and P = X·A. -/
theorem result_eq (X Y : (⟨S8x2048x256, .f32⟩ : BufTy).Contents (Elt Ideal)) (A : (⟨S256x100, .f32⟩ : BufTy).Contents (Elt Ideal)) :
    val_main_v15 (F := Ideal) X Y A = Cert.PairDist.dist (Cert.PairDist.proj Y A) (Cert.PairDist.proj X A) := by
  funext i
  rw [val_main_v15_apply, val_main_v14_apply, val_main_v11_apply, val_main_v13_apply, val_main_v9_apply, val_main_v7_apply,
    val_main_v5_apply, val_main_v10_apply, val_main_v8_apply, val_main_v3_apply, val_main_v12_apply, val_main_v6_apply,
    val_main_call0_v0_apply, val_main_call0_cst_apply, val_main_cst_1_apply, val_main_cst_apply, val_main_cst_0_apply]
  simp only [val_main_v4_apply, val_main_v2_apply, product_eq, product_eq']
  have erow : ∀ k : Fin 100, idx_main_v5 (idx_main_v7 (idx_main_v9 i)) k = Cert.PairDist.atProj ⟨(i 0).val, (i 0).isLt⟩ ⟨(i 1).val, (i 1).isLt⟩ k :=
    fun k => funext fun a => Fin.ext (by match a with | ⟨0, _⟩ => rfl | ⟨1, _⟩ => rfl | ⟨2, _⟩ => rfl)
  have ecol : ∀ k : Fin 100, idx_main_v3 (idx_main_v8 (idx_main_v10 i)) k = Cert.PairDist.atProj ⟨(i 0).val, (i 0).isLt⟩ ⟨(i 2).val, (i 2).isLt⟩ k :=
    fun k => funext fun a => Fin.ext (by match a with | ⟨0, _⟩ => rfl | ⟨1, _⟩ => rfl | ⟨2, _⟩ => rfl)
  have el : ∀ k : Fin 100, lidx_main_v6 i k = Cert.PairDist.atProj ⟨(i 0).val, (i 0).isLt⟩ ⟨(i 1).val, (i 1).isLt⟩ k :=
    fun k => funext fun a => Fin.ext (by match a with | ⟨0, _⟩ => rfl | ⟨1, _⟩ => rfl | ⟨2, _⟩ => rfl)
  have er : ∀ k : Fin 100, ridx_main_v6 i k = Cert.PairDist.atProj ⟨(i 0).val, (i 0).isLt⟩ ⟨(i 2).val, (i 2).isLt⟩ k :=
    fun k => funext fun a => Fin.ext (by match a with | ⟨0, _⟩ => rfl | ⟨1, _⟩ => rfl | ⟨2, _⟩ => rfl)
  simp only [erow, ecol, el, er]
  have hz : ∀ s : EReal, (FloatOps.ofBits (F := Ideal) .f32 0x00000000#32 : EReal) + s = s := fun s => by
    rw [show (FloatOps.ofBits (F := Ideal) .f32 0x00000000#32 : EReal) = 0 from Ideal.ofBits_zero_f32, zero_add]
  rw [hz, hz]
  rfl

end Cert.ReferenceIdeal.RefValue

end
-- ==== Proof.Claims.lean ====
/-
  The five claims.  The two kernel frames are the generated ones; the reference's frame is its generated run with
  the result dropped; the idealization rewrote nothing, so `preserves` is `True`.  For the value claim both runs
  end with the result at one and the same function of the argument arrays (Proof/PairDist.lean): the kernel's by
  the run that names its result array and the reading of the three launches, the reference's by its generated run
  read one operation at a time; the memories agree on the arguments.
-/
import proofs.«158278_j51118700757139_1_alg».proof.Defs
import proofs.«158278_j51118700757139_1_alg».proof.Proof.Gen.Kernel.Frame
import proofs.«158278_j51118700757139_1_alg».proof.Proof.Gen.KernelIdeal.Frame
import proofs.«158278_j51118700757139_1_alg».proof.Proof.Gen.ReferenceIdeal.Run
import proofs.«158278_j51118700757139_1_alg».proof.Proof.Gen.ReferenceIdeal.Read
import proofs.«158278_j51118700757139_1_alg».proof.Proof.Gen.Pre_finite_inputs
import proofs.«158278_j51118700757139_1_alg».proof.Proof.RunNamed
import proofs.«158278_j51118700757139_1_alg».proof.Proof.KernelValue
import proofs.«158278_j51118700757139_1_alg».proof.Proof.RefValue

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the distance array of Q = Y·A and P = X·A. -/
theorem algebraic : Cert.algebraic_KernelIdeal_ReferenceIdeal := by
  intro m ρ m' ρ' _ hagree
  refine ⟨fun c => Cert.PairDist.dist
      (Cert.PairDist.proj (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.PairDist.proj (m ((c.tc : Thread Cert.KernelIdeal.nD Cert.KernelIdeal.τ).loc Cert.KernelIdeal.main_arg0)) (m ((c.tc : Thread Cert.KernelIdeal.nD Cert.KernelIdeal.τ).loc Cert.KernelIdeal.main_arg2))), ?_, ?_⟩
  · exact (θ_run Cert.KernelIdeal.defs _ _).mono
      (fun _ h c => ⟨(h c).1.trans (Cert.KernelIdeal.KernelValue.result_array m ρ c), (h c).2⟩)
      (Cert.KernelIdeal.RunNamed.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.ReferenceIdeal.RefValue.result_eq,
      (hagree c).1, (hagree c).2.1, (hagree c).2.2]

end Cert.Proof.Claims

end
-- ==== Proof.lean ====
/- The certificate of the pairwise squared-distance kernel against its jnp reference: `Cert.Claim` is the five
   claims of Proof/Claims.lean behind the witnesses of the programs' stated facts.  Both programs compute, for
   P = X·A and Q = Y·A, max((‖Q[b,n,:]‖² + ‖P[b,m,:]‖²) − 2·⟨Q[b,n,:], P[b,m,:]⟩, 0) (Proof/PairDist.lean); the kernel
   in three launches (two projections, Proof/ProjFirst.lean and Proof/ProjSecond.lean over Proof/ProjBody.lean, and
   the tiled pairwise launch, Proof/Pairwise.lean over Proof/CrossBody.lean; joined in Proof/KernelValue.lean), the
   reference by host operations (Proof/RefValue.lean). -/
import proofs.«158278_j51118700757139_1_alg».proof.Defs
import proofs.«158278_j51118700757139_1_alg».proof.Proof.Gen.Kernel
import proofs.«158278_j51118700757139_1_alg».proof.Proof.Gen.Kernel.Skeleton
import proofs.«158278_j51118700757139_1_alg».proof.Proof.Gen.Kernel.Launch
import proofs.«158278_j51118700757139_1_alg».proof.Proof.Gen.Kernel.Points
import proofs.«158278_j51118700757139_1_alg».proof.Proof.Gen.Kernel.Frame
import proofs.«158278_j51118700757139_1_alg».proof.Proof.Gen.KernelIdeal
import proofs.«158278_j51118700757139_1_alg».proof.Proof.Gen.KernelIdeal.Skeleton
import proofs.«158278_j51118700757139_1_alg».proof.Proof.Gen.KernelIdeal.Launch
import proofs.«158278_j51118700757139_1_alg».proof.Proof.Gen.KernelIdeal.Points
import proofs.«158278_j51118700757139_1_alg».proof.Proof.Gen.KernelIdeal.Frame
import proofs.«158278_j51118700757139_1_alg».proof.Proof.Gen.ReferenceIdeal
import proofs.«158278_j51118700757139_1_alg».proof.Proof.Gen.Pre_finite_inputs
import proofs.«158278_j51118700757139_1_alg».proof.Proof.Gen.ReferenceIdeal.Run
import proofs.«158278_j51118700757139_1_alg».proof.Proof.Gen.ReferenceIdeal.Read
import proofs.«158278_j51118700757139_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernel_ideal, Claims.frame_reference, Claims.preserves, Claims.algebraic⟩

end Cert.Proof

end
